-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x16x256 : Shape := ⟨3, ![8192, 16, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x16x256 : S_.BroadcastsInDim S8192x16x256 (![] : Fin 0 → Fin S8192x16x256.rank)
  reducesTo_S8192x16x256_S_d0_1_2 : S8192x16x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x16x256 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x16x256 .f32 := Host.absf main_arg1
  let main_cst_0 : FVec F S_ .f32 := constant S_ .f32 0x7F800000#32
  let main_v5 : FVec F S8192x16x256 .f32 := broadcastInDim S8192x16x256 ![] bcast_S_S8192x16x256 main_cst_0
  let main_v6 : IVec S8192x16x256 1 := cmpf .olt main_v4 main_v5
  let main_c_1 : IVec S_ 1 := constantI S_ 1 1#1
  let main_v7 : IVec S_ 1 := (fun x v => Host.reduce IntOp.andi x v reducesTo_S8192x16x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S8192x16x256 : Shape := ⟨3, ![8192, 16, 256]⟩
abbrev S256x256 : Shape := ⟨2, ![256, 256]⟩
abbrev S128x128 : Shape := ⟨2, ![128, 128]⟩
abbrev S_ : Shape := ⟨0, ![]⟩
abbrev S128x16x128 : Shape := ⟨3, ![128, 16, 128]⟩
abbrev S2048x128 : Shape := ⟨2, ![2048, 128]⟩
abbrev S128x256 : Shape := ⟨2, ![128, 256]⟩
abbrev S128x16x256 : Shape := ⟨3, ![128, 16, 256]⟩
abbrev S2048x256 : Shape := ⟨2, ![2048, 256]⟩

abbrev nBuf : Space → Nat
  | .hbm => 14
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x16x256, .f32⟩
  | .hbm, ⟨2, _⟩ => ⟨S256x256, .f32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S128x16x128, .f32⟩
  | .hbm, ⟨11, _⟩ => ⟨S2048x128, .f32⟩
  | .hbm, ⟨12, _⟩ => ⟨S8192x256, .f32⟩
  | .hbm, ⟨13, _⟩ => ⟨S8192x16x256, .f32⟩
  | .local _ .vmem, ⟨0, _⟩ => ⟨S128x256, .f32⟩
  | .local _ .vmem, ⟨1, _⟩ => ⟨S128x256, .f32⟩
  | .local _ .vmem, ⟨2, _⟩ => ⟨S128x16x256, .f32⟩
  | .local _ .vmem, ⟨3, _⟩ => ⟨S128x16x256, .f32⟩
  | .local _ .vmem, ⟨4, _⟩ => ⟨S256x256, .f32⟩
  | .local _ .vmem, ⟨5, _⟩ => ⟨S2048x128, .f32⟩
  | .local _ .vmem, ⟨6, _⟩ => ⟨S128x256, .f32⟩
  | .local _ .vmem, ⟨7, _⟩ => ⟨S128x256, .f32⟩
  | .local _ .vmem, ⟨8, _⟩ => ⟨S128x16x256, .f32⟩
  | .local _ .vmem, ⟨9, _⟩ => ⟨S128x16x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128x128 : S_.BroadcastsInDim S128x128 (![] : Fin 0 → Fin S128x128.rank)
  bcast_S128x128_S128x16x128_0_2 : S128x128.BroadcastsInDim S128x16x128 (![0, 2] : Fin 2 → Fin S128x16x128.rank)
  shapeCasts_S128x16x128_S2048x128 : S128x16x128.ShapeCasts S2048x128
  inb_S256x256_S256x256_0_0 : ∀ a, (![0, 0] : Fin 2 → Nat) a + S256x256.size a ≤ S256x256.size a
  h_S256x256 : 0 < S256x256.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x16x256_S128x16x256_0_0_0 : ∀ a, (![0, 0, 0] : Fin 3 → Nat) a + S128x16x256.size a ≤ S128x16x256.size a
  h_S128x16x256 : 0 < S128x16x256.numel
  shapeCasts_S128x16x256_S2048x256 : S128x16x256.ShapeCasts S2048x256
  inb_S128x256_S128x256_0_0 : ∀ a, (![0, 0] : Fin 2 → Nat) a + S128x256.size a ≤ S128x256.size a
  h_S128x256 : 0 < S128x256.numel
  shapeCasts_S2048x256_S128x16x256 : S2048x256.ShapeCasts S128x16x256
  dot_S2048x256_S256x256_S2048x256_1_0_0_1_n_n_wf : DotDims.WF S2048x256 S256x256 S2048x256 [1] [0] [0] [1] [] []
  dot_S128x256_S256x256_S128x256_1_0_0_1_n_n_wf : DotDims.WF S128x256 S256x256 S128x256 [1] [0] [0] [1] [] []
  dot_S2048x128_S128x256_S2048x256_1_0_0_1_n_n_wf : DotDims.WF S2048x128 S128x256 S2048x256 [1] [0] [0] [1] [] []
  dot_S2048x128_S2048x256_S128x256_0_0_1_1_n_n_wf : DotDims.WF S2048x128 S2048x256 S128x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x256.size a ≤ S8192x16x256.size a
  hwx0_1 : ∀ i : grid0.Coords, EltTy.bits .f32 = 32 ∨ (Rect.block (s := S8192x16x256) S128x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .f32 = 32 ∨ (Rect.block (s := S2048x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S8192x256.size a
  hwx0_4 : ∀ i : grid0.Coords, EltTy.bits .f32 = 32 ∨ (Rect.block (s := S8192x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x16x256.size a ≤ S8192x16x256.size a
  hwx0_5 : ∀ i : grid0.Coords, EltTy.bits .f32 = 32 ∨ (Rect.block (s := S8192x16x256) S128x16x256.size (cc0_transform_5 i) (hinb0_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x128_S2048x256_S128x256_0_0_1_1_n_n : DotDims S2048x128 S2048x256 S128x256 where
  lhsContracting := [0]
  rhsContracting := [0]
  lhsNonContracting := [1]
  rhsNonContracting := [1]
  lhsBatch := []
  rhsBatch := []
  wf := dot_S2048x128_S2048x256_S128x256_0_0_1_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x16x256 : Shape := ⟨3, ![8192, 16, 256]⟩
abbrev S256x256 : Shape := ⟨2, ![256, 256]⟩
abbrev S16x8192x256 : Shape := ⟨3, ![16, 8192, 256]⟩
abbrev S512x256 : Shape := ⟨2, ![512, 256]⟩
abbrev S16x512x256 : Shape := ⟨3, ![16, 512, 256]⟩
abbrev S1x512x256 : Shape := ⟨3, ![1, 512, 256]⟩

abbrev nBuf : Space → Nat
  | .hbm => 7
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x16x256, .f32⟩
  | .hbm, ⟨2, _⟩ => ⟨S256x256, .f32⟩
  | .hbm, ⟨3, _⟩ => ⟨S16x8192x256, .f32⟩
  | .hbm, ⟨4, _⟩ => ⟨S8192x256, .f32⟩
  | .hbm, ⟨5, _⟩ => ⟨S16x8192x256, .f32⟩
  | .hbm, ⟨6, _⟩ => ⟨S8192x16x256, .f32⟩
  | .local _ .vmem, ⟨0, _⟩ => ⟨S512x256, .f32⟩
  | .local _ .vmem, ⟨1, _⟩ => ⟨S512x256, .f32⟩
  | .local _ .vmem, ⟨2, _⟩ => ⟨S16x512x256, .f32⟩
  | .local _ .vmem, ⟨3, _⟩ => ⟨S16x512x256, .f32⟩
  | .local _ .vmem, ⟨4, _⟩ => ⟨S256x256, .f32⟩
  | .local _ .vmem, ⟨5, _⟩ => ⟨S512x256, .f32⟩
  | .local _ .vmem, ⟨6, _⟩ => ⟨S512x256, .f32⟩
  | .local _ .vmem, ⟨7, _⟩ => ⟨S16x512x256, .f32⟩
  | .local _ .vmem, ⟨8, _⟩ => ⟨S16x512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8192x16x256_S16x8192x256_1_0_2 : S8192x16x256.Transposes [1, 0, 2] S16x8192x256
  inb_S256x256_S256x256_0_0 : ∀ a, (![0, 0] : Fin 2 → Nat) a + S256x256.size a ≤ S256x256.size a
  h_S256x256 : 0 < S256x256.numel
  inb_S512x256_S512x256_0_0 : ∀ a, (![0, 0] : Fin 2 → Nat) a + S512x256.size a ≤ S512x256.size a
  h_S512x256 : 0 < S512x256.numel
  inb_S16x512x256_S1x512x256_0_0_0 : ∀ a, (![0, 0, 0] : Fin 3 → Nat) a + S1x512x256.size a ≤ S16x512x256.size a
  h_S1x512x256 : 0 < S1x512x256.numel
  shapeCasts_S1x512x256_S512x256 : S1x512x256.ShapeCasts S512x256
  shapeCasts_S512x256_S1x512x256 : S512x256.ShapeCasts S1x512x256
  inb_S16x512x256_S1x512x256_1_0_0 : ∀ a, (![1, 0, 0] : Fin 3 → Nat) a + S1x512x256.size a ≤ S16x512x256.size a
  inb_S16x512x256_S1x512x256_2_0_0 : ∀ a, (![2, 0, 0] : Fin 3 → Nat) a + S1x512x256.size a ≤ S16x512x256.size a
  inb_S16x512x256_S1x512x256_3_0_0 : ∀ a, (![3, 0, 0] : Fin 3 → Nat) a + S1x512x256.size a ≤ S16x512x256.size a
  inb_S16x512x256_S1x512x256_4_0_0 : ∀ a, (![4, 0, 0] : Fin 3 → Nat) a + S1x512x256.size a ≤ S16x512x256.size a
  inb_S16x512x256_S1x512x256_5_0_0 : ∀ a, (![5, 0, 0] : Fin 3 → Nat) a + S1x512x256.size a ≤ S16x512x256.size a
  inb_S16x512x256_S1x512x256_6_0_0 : ∀ a, (![6, 0, 0] : Fin 3 → Nat) a + S1x512x256.size a ≤ S16x512x256.size a
  inb_S16x512x256_S1x512x256_7_0_0 : ∀ a, (![7, 0, 0] : Fin 3 → Nat) a + S1x512x256.size a ≤ S16x512x256.size a
  inb_S16x512x256_S1x512x256_8_0_0 : ∀ a, (![8, 0, 0] : Fin 3 → Nat) a + S1x512x256.size a ≤ S16x512x256.size a
  inb_S16x512x256_S1x512x256_9_0_0 : ∀ a, (![9, 0, 0] : Fin 3 → Nat) a + S1x512x256.size a ≤ S16x512x256.size a
  inb_S16x512x256_S1x512x256_10_0_0 : ∀ a, (![10, 0, 0] : Fin 3 → Nat) a + S1x512x256.size a ≤ S16x512x256.size a
  inb_S16x512x256_S1x512x256_11_0_0 : ∀ a, (![11, 0, 0] : Fin 3 → Nat) a + S1x512x256.size a ≤ S16x512x256.size a
  inb_S16x512x256_S1x512x256_12_0_0 : ∀ a, (![12, 0, 0] : Fin 3 → Nat) a + S1x512x256.size a ≤ S16x512x256.size a
  inb_S16x512x256_S1x512x256_13_0_0 : ∀ a, (![13, 0, 0] : Fin 3 → Nat) a + S1x512x256.size a ≤ S16x512x256.size a
  inb_S16x512x256_S1x512x256_14_0_0 : ∀ a, (![14, 0, 0] : Fin 3 → Nat) a + S1x512x256.size a ≤ S16x512x256.size a
  inb_S16x512x256_S1x512x256_15_0_0 : ∀ a, (![15, 0, 0] : Fin 3 → Nat) a + S1x512x256.size a ≤ S16x512x256.size a
  transposes_S16x8192x256_S8192x16x256_1_0_2 : S16x8192x256.Transposes [1, 0, 2] S8192x16x256
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x256.size a ≤ S16x8192x256.size a
  hwx0_1 : ∀ i : grid0.Coords, EltTy.bits .f32 = 32 ∨ (Rect.block (s := S16x8192x256) S16x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512x256.size a ≤ S16x8192x256.size a
  hwx0_4 : ∀ i : grid0.Coords, EltTy.bits .f32 = 32 ∨ (Rect.block (s := S16x8192x256) S16x512x256.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S16x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The graph convolution both programs compute, as functions of the three argument arrays over the extended reals.

  With node features `X : [8192, 256]`, neighbour features `N : [8192, 16, 256]` and weights `W : [256, 256]`:
    * `xw X W b o = ∑ f, X (b, f) · W (f, o)`        — the node's projected features,
    * `nw N W b k o = ∑ f, N (b, k, f) · W (f, o)`   — the projected features of its neighbour in slot `k`,
    * `aggSpec N W (b, o) = ∑ k, nw N W b k o`       — the sum over the sixteen slots,
    * `outSpec X N W (b, k, o) = xw X W b o + nw N W b k o`.
-/
import Idealize.ShloMosaic.PureOps.Ideal.Laws
import Idealize.ShloMosaic.Lib.ValueIdx

noncomputable section

namespace GraphConv

open Idealize.ShloMosaic Idealize.ShloMosaic.ValueIdx

/-- Entry `(b, o)` of the node features times the weights. -/
def xw (X : FVec Ideal ⟨2, ![8192, 256]⟩ .f32) (W : FVec Ideal ⟨2, ![256, 256]⟩ .f32) (b : Fin 8192) (o : Fin 256) : EReal :=
  ∑ f : Fin 256, X (ix2 b f) * W (ix2 f o)

/-- Entry `(b, o)` of neighbour slot `k`'s features times the weights. -/
def nw (N : FVec Ideal ⟨3, ![8192, 16, 256]⟩ .f32) (W : FVec Ideal ⟨2, ![256, 256]⟩ .f32) (b : Fin 8192) (k : Fin 16)
    (o : Fin 256) : EReal :=
  ∑ f : Fin 256, N (ix3 b k f) * W (ix2 f o)

/-- The aggregated output: the projected neighbour features summed over the sixteen slots. -/
def aggSpec (N : FVec Ideal ⟨3, ![8192, 16, 256]⟩ .f32) (W : FVec Ideal ⟨2, ![256, 256]⟩ .f32) :
    FVec Ideal ⟨2, ![8192, 256]⟩ .f32 :=
  fun i => ∑ k : Fin 16, nw N W (i 0) k (i 1)

/-- The per-slot output: the node's projection plus the slot's. -/
def outSpec (X : FVec Ideal ⟨2, ![8192, 256]⟩ .f32) (N : FVec Ideal ⟨3, ![8192, 16, 256]⟩ .f32)
    (W : FVec Ideal ⟨2, ![256, 256]⟩ .f32) : FVec Ideal ⟨3, ![8192, 16, 256]⟩ .f32 :=
  fun i => xw X W (i 0) (i 2) + nw N W (i 0) (i 1) (i 2)

theorem aggSpec_apply (N : FVec Ideal ⟨3, ![8192, 16, 256]⟩ .f32) (W : FVec Ideal ⟨2, ![256, 256]⟩ .f32) (b : Fin 8192)
    (o : Fin 256) : aggSpec N W (ix2 b o) = ∑ k : Fin 16, nw N W b k o := rfl

theorem outSpec_apply (X : FVec Ideal ⟨2, ![8192, 256]⟩ .f32) (N : FVec Ideal ⟨3, ![8192, 16, 256]⟩ .f32)
    (W : FVec Ideal ⟨2, ![256, 256]⟩ .f32) (b : Fin 8192) (k : Fin 16) (o : Fin 256) :
    outSpec X N W (ix3 b k o) = xw X W b o + nw N W b k o := rfl

end GraphConv

end
-- ==== Proof.KPay.lean ====
/-
  The kernel body's two stored values, read at an index over the extended reals.

  Per grid point the body holds a tile of 128 nodes: their features `X : [128, 256]`, their neighbours `N : [128, 16, 256]`
  (read as `[2048, 256]`, row `16 p + k` being neighbour slot `k` of node `p`), the weights `W : [256, 256]` and the
  0/1 expansion matrix `E : [2048, 128]` with `E (r, b) = 1` exactly when `r / 16 = b`. It forms `nw = N · W`,
  `xw = X · W`, stores `nw + E · xw` and `Eᵀ · nw`. Because row `r` of `E` has its single one in column `r / 16`,
  `(E · xw) (16 p + k, o) = xw (p, o)` and `(Eᵀ · nw) (p, o) = ∑ k, nw (16 p + k, o)`: multiplying by zero gives zero
  and adding zero changes nothing on the extended reals, so no finiteness is needed.
-/
import proofs.«182112_g2000104578353512_pallasbulk_618_4_alg».proof.Proof.Gen.KernelIdeal.Skeleton
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

noncomputable section

open Idealize.ShloMosaic Idealize.ShloMosaic.ValueIdx

namespace Cert.KernelIdeal.Hand

open Cert.KernelIdeal Cert.KernelIdeal.Gen

/-! ## Rows of the flattened neighbour tile -/

/-- Row `16 p + k` of the flattened tile: neighbour slot `k` of node `p`. -/
def row (p : Fin 128) (k : Fin 16) : Fin 2048 := ⟨16 * p.val + k.val, by have := p.isLt; have := k.isLt; omega⟩

theorem row_val (p : Fin 128) (k : Fin 16) : (row p k).val = 16 * p.val + k.val := rfl

theorem row_div (p : Fin 128) (k : Fin 16) : (row p k).val / 16 = p.val := by
  have := k.isLt; rw [row_val]; omega

theorem row_injective (p : Fin 128) : Function.Injective (row p) := fun k k' h => by
  apply Fin.ext; have := congrArg Fin.val h; simp only [row_val] at this; omega

/-! ## Sums against a 0/1 row or column of the expansion matrix -/

/-- A sum over the 128 columns against the indicator of column `p` picks out the term at `p`. -/
theorem sum_indicator_col (g : Fin 128 → EReal) (p : Fin 128) (k : Fin 16) :
    ∑ b : Fin 128, (if (row p k).val / 16 = b.val then (1 : EReal) else 0) * g b = g p := by
  rw [Finset.sum_eq_single p]
  · rw [if_pos (row_div p k), one_mul]
  · intro b _ hb
    rw [if_neg (fun h => hb (Fin.ext ((row_div p k).symm.trans h).symm)), zero_mul]
  · intro h; exact absurd (Finset.mem_univ p) h

/-- A sum over the 2048 rows against the indicator of the rows of node `p` is the sum over that node's sixteen rows. -/
theorem sum_indicator_row (g : Fin 2048 → EReal) (p : Fin 128) :
    ∑ r : Fin 2048, (if r.val / 16 = p.val then (1 : EReal) else 0) * g r = ∑ k : Fin 16, g (row p k) := by
  have h1 : ∀ r : Fin 2048, (if r.val / 16 = p.val then (1 : EReal) else 0) * g r = if r.val / 16 = p.val then g r else 0 := by
    intro r; split
    · rw [one_mul]
    · rw [zero_mul]
  rw [Finset.sum_congr rfl fun r _ => h1 r, ← Finset.sum_filter]
  have h2 : (Finset.univ.filter fun r : Fin 2048 => r.val / 16 = p.val) = Finset.univ.image (row p) := by
    ext r
    simp only [Finset.mem_filter, Finset.mem_univ, true_and, Finset.mem_image]
    constructor
    · intro h
      refine ⟨⟨r.val % 16, Nat.mod_lt _ (by decide)⟩, Fin.ext ?_⟩
      rw [row_val]; show 16 * p.val + r.val % 16 = r.val; omega
    · rintro ⟨k, rfl⟩; exact row_div p k
  rw [h2, Finset.sum_image fun k _ k' _ h => row_injective p h]

/-! ## The matrix products at an index -/

/-- The flattened neighbour tile times the weights. -/
theorem nbrW_apply (A : FVec Ideal S2048x256 .f32) (W : FVec Ideal S256x256 .f32) (r : Fin 2048) (o : Fin 256) :
    matmul dot_S2048x256_S256x256_S2048x256_1_0_0_1_n_n none A W (constant S2048x256 .f32 0x00000000#32) (ix2 r o)
      = ∑ f : Fin 256, A (ix2 r f) * W (ix2 f o) := by
  rw [matmul_zero_eq_dotGeneral]
  exact StackMember.dotGeneral_plain_apply none A W r o

/-- The node features times the weights. -/
theorem xW_apply (A : FVec Ideal S128x256 .f32) (W : FVec Ideal S256x256 .f32) (b : Fin 128) (o : Fin 256) :
    matmul dot_S128x256_S256x256_S128x256_1_0_0_1_n_n none A W (constant S128x256 .f32 0x00000000#32) (ix2 b o)
      = ∑ f : Fin 256, A (ix2 b f) * W (ix2 f o) := by
  rw [matmul_zero_eq_dotGeneral]
  exact StackMember.dotGeneral_plain_apply none A W b o

/-- The expansion matrix times a `[128, 256]` matrix. -/
theorem expand_mul_apply (E : FVec Ideal S2048x128 .f32) (B : FVec Ideal S128x256 .f32) (r : Fin 2048) (o : Fin 256) :
    matmul dot_S2048x128_S128x256_S2048x256_1_0_0_1_n_n none E B (constant S2048x256 .f32 0x00000000#32) (ix2 r o)
      = ∑ b : Fin 128, E (ix2 r b) * B (ix2 b o) := by
  rw [matmul_zero_eq_dotGeneral]
  exact StackMember.dotGeneral_plain_apply none E B r o

/-- The transposed expansion matrix times a `[2048, 256]` matrix: both operands contracted along their rows. -/
theorem expandT_mul_apply (E : FVec Ideal S2048x128 .f32) (B : FVec Ideal S2048x256 .f32) (p : Fin 128) (o : Fin 256) :
    matmul dot_S2048x128_S2048x256_S128x256_0_0_1_1_n_n none E B (constant S128x256 .f32 0x00000000#32) (ix2 p o)
      = ∑ r : Fin 2048, E (ix2 r p) * B (ix2 r o) := by
  rw [matmul_zero_eq_dotGeneral]
  show FloatOps.dotGeneral _ none _ E B (ix2 p o) = _
  rw [Ideal.dotGeneral_apply,
    ← Equiv.sum_comp (contrEquiv1 dot_S2048x128_S2048x256_S128x256_0_0_1_1_n_n 2048 rfl rfl).symm]
  refine Finset.sum_congr rfl fun r _ => ?_
  have cr := contrEquiv1_symm_val dot_S2048x128_S2048x256_S128x256_0_0_1_1_n_n 2048 rfl rfl r
  have hl : dot_S2048x128_S2048x256_S128x256_0_0_1_1_n_n.lhsIdx (ix2 p o)
      ((contrEquiv1 dot_S2048x128_S2048x256_S128x256_0_0_1_1_n_n 2048 rfl rfl).symm r) = ix2 r p := by
    funext ax; apply Fin.ext
    match ax with
    | ⟨0, _⟩ => simp [DotDims.lhsIdx, dot_S2048x128_S2048x256_S128x256_0_0_1_1_n_n]; exact cr
    | ⟨1, _⟩ => simp [DotDims.lhsIdx, dot_S2048x128_S2048x256_S128x256_0_0_1_1_n_n]; rfl
  have hr : dot_S2048x128_S2048x256_S128x256_0_0_1_1_n_n.rhsIdx (ix2 p o)
      ((contrEquiv1 dot_S2048x128_S2048x256_S128x256_0_0_1_1_n_n 2048 rfl rfl).symm r) = ix2 r o := by
    funext ax; apply Fin.ext
    match ax with
    | ⟨0, _⟩ => simp [DotDims.rhsIdx, dot_S2048x128_S2048x256_S128x256_0_0_1_1_n_n]; exact cr
    | ⟨1, _⟩ => simp [DotDims.rhsIdx, dot_S2048x128_S2048x256_S128x256_0_0_1_1_n_n]; rfl
  rw [hl, hr]

/-! ## The two layout casts -/

/-- The neighbour tile flattened to `[2048, 256]`: row `16 p + k` is `(p, k)`. -/
theorem flatten_apply (N : Vec Ideal S128x16x256 .f32) (p : Fin 128) (k : Fin 16) (f : Fin 256) :
    shapeCast S2048x256 N shapeCasts_S128x16x256_S2048x256 (ix2 (row p k) f) = N (ix3 p k f) :=
  shapeCast_apply N shapeCasts_S128x16x256_S2048x256 _ _ (by
    rw [Shape.rowMajor_val_two, Shape.rowMajor_val_three]
    show (p.val * 16 + k.val) * 256 + f.val = (16 * p.val + k.val) * 256 + f.val
    omega)

/-- A `[2048, 256]` value laid back as `[128, 16, 256]`. -/
theorem unflatten_apply (A : FVec Ideal S2048x256 .f32) (p : Fin 128) (k : Fin 16) (o : Fin 256) :
    shapeCast S128x16x256 A shapeCasts_S2048x256_S128x16x256 (ix3 p k o) = A (ix2 (row p k) o) :=
  shapeCast_apply A shapeCasts_S2048x256_S128x16x256 _ _ (by
    rw [Shape.rowMajor_val_two, Shape.rowMajor_val_three]
    show (16 * p.val + k.val) * 256 + o.val = (p.val * 16 + k.val) * 256 + o.val
    omega)

/-! ## The payloads -/

/-- The projected neighbours: row `16 p + k`, column `o`. -/
theorem pay2_apply (W : Vec Ideal S256x256 .f32) (N : Vec Ideal S128x16x256 .f32) (p : Fin 128) (k : Fin 16) (o : Fin 256) :
    k0_pay2 W N (ix2 (row p k) o) = ∑ f : Fin 256, N (ix3 p k f) * W (ix2 f o) := by
  unfold k0_pay2
  refine (nbrW_apply _ W (row p k) o).trans ?_
  exact Finset.sum_congr rfl fun f _ => congrArg (· * W (ix2 f o)) (flatten_apply N p k f)

/-- The per-slot output of the tile at `(p, k, o)`: the slot's projection plus the node's. -/
theorem pay3_apply (W : Vec Ideal S256x256 .f32) (E : Vec Ideal S2048x128 .f32) (N : Vec Ideal S128x16x256 .f32)
    (X : Vec Ideal S128x256 .f32) (hE : ∀ (r : Fin 2048) (b : Fin 128), E (ix2 r b) = if r.val / 16 = b.val then (1 : EReal) else 0)
    (p : Fin 128) (k : Fin 16) (o : Fin 256) :
    k0_pay3 W E N X (ix3 p k o)
      = (∑ f : Fin 256, N (ix3 p k f) * W (ix2 f o)) + ∑ f : Fin 256, X (ix2 p f) * W (ix2 f o) := by
  unfold k0_pay3
  refine (unflatten_apply _ p k o).trans ?_
  refine (addf_apply _ _ _).trans ?_
  refine congrArg₂ (· + ·) (pay2_apply W N p k o) ?_
  refine (expand_mul_apply _ _ (row p k) o).trans ?_
  unfold k0_pay1
  rw [shapeCast_self]
  rw [Finset.sum_congr rfl fun b _ => congrArg₂ (· * ·) (hE (row p k) b) (xW_apply X W b o)]
  exact sum_indicator_col (fun b => ∑ f : Fin 256, X (ix2 b f) * W (ix2 f o)) p k

/-- The aggregated output of the tile at `(p, o)`: the sixteen slots' projections summed. -/
theorem pay4_apply (W : Vec Ideal S256x256 .f32) (E : Vec Ideal S2048x128 .f32) (N : Vec Ideal S128x16x256 .f32)
    (hE : ∀ (r : Fin 2048) (b : Fin 128), E (ix2 r b) = if r.val / 16 = b.val then (1 : EReal) else 0)
    (p : Fin 128) (o : Fin 256) :
    k0_pay4 W E N (ix2 p o) = ∑ k : Fin 16, ∑ f : Fin 256, N (ix3 p k f) * W (ix2 f o) := by
  unfold k0_pay4
  refine (expandT_mul_apply _ _ p o).trans ?_
  unfold k0_pay1
  rw [shapeCast_self]
  rw [Finset.sum_congr rfl fun r _ => congrArg (· * k0_pay2 W N (ix2 r o)) (hE r p)]
  refine (sum_indicator_row (fun r => k0_pay2 W N (ix2 r o)) p).trans ?_
  exact Finset.sum_congr rfl fun k _ => pay2_apply W N p k o

end Cert.KernelIdeal.Hand

end
-- ==== Proof.KExpand.lean ====
/-
  The constant expansion matrix the kernel's program builds before its launch, read at an index: entry (r, b) is one when
  row r belongs to node b of the tile (r / 16 = b) and zero otherwise.
-/
import proofs.«182112_g2000104578353512_pallasbulk_618_4_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem

namespace Cert.KernelIdeal.Hand

open Cert.KernelIdeal Cert.KernelIdeal.Gen Idealize.ShloMosaic.ValueIdx

variable (m : (ℓ : Loc nD τ sig) → Buf (Elt Ideal) ℓ)

/-- The 0/1 identity pattern on [128,128] as the integer operations build it: two iotas (the first with a zero
    splat added), compared for equality, the bit read as a number. -/
def eyeTerm : FVec Ideal S128x128 .f32 :=
  uitofp (F := Ideal) .f32
    (cmpi .eq (addi (iotaInDim S128x128 32 0) (broadcastInDim S128x128 ![] bcast_S_S128x128 (constantI S_ 32 0#32)))
      (iotaInDim S128x128 32 1))

/-- Two words made from naturals below 2^32 are equal exactly when the naturals are. -/
theorem ofNat32_eq_iff (p q : ℕ) (hp : p < 2 ^ 32) (hq : q < 2 ^ 32) : BitVec.ofNat 32 p = BitVec.ofNat 32 q ↔ p = q := by
  constructor
  · intro h
    have := congrArg BitVec.toNat h
    rw [BitVec.toNat_ofNat, BitVec.toNat_ofNat, Nat.mod_eq_of_lt hp, Nat.mod_eq_of_lt hq] at this
    exact this
  · intro h; rw [h]

/-- The pattern at (p, q): one on the diagonal, zero off it. -/
theorem eyeTerm_apply (p q : Fin 128) : eyeTerm (ix2 p q) = if p.val = q.val then (1 : EReal) else 0 := by
  show (((IntOp.cmpi .eq (IntOp.addi (BitVec.ofNat 32 p.val) 0#32) (BitVec.ofNat 32 q.val)).toNat : ℝ) : EReal) = _
  have hp : p.val < 2 ^ 32 := by have := p.isLt; omega
  have hq : q.val < 2 ^ 32 := by have := q.isLt; omega
  have h0 : IntOp.addi (BitVec.ofNat 32 p.val) 0#32 = BitVec.ofNat 32 p.val := by
    show BitVec.ofNat 32 p.val + 0#32 = _
    rw [BitVec.add_zero]
  rw [h0]
  by_cases h : p.val = q.val
  · rw [if_pos h]
    have e : IntOp.cmpi .eq (BitVec.ofNat 32 p.val) (BitVec.ofNat 32 q.val) = 1#1 := by
      show BitVec.ofBool (BitVec.ofNat 32 p.val == BitVec.ofNat 32 q.val) = 1#1
      rw [h]; simp
    rw [e]; simp
  · rw [if_neg h]
    have e : IntOp.cmpi .eq (BitVec.ofNat 32 p.val) (BitVec.ofNat 32 q.val) = 0#1 := by
      show BitVec.ofBool (BitVec.ofNat 32 p.val == BitVec.ofNat 32 q.val) = 0#1
      have hne : BitVec.ofNat 32 p.val ≠ BitVec.ofNat 32 q.val := fun hh => h ((ofNat32_eq_iff _ _ hp hq).1 hh)
      have hb : (BitVec.ofNat 32 p.val == BitVec.ofNat 32 q.val) = false := beq_false_of_ne hne
      rw [hb]; rfl
    rw [e]; simp

/-- The matrix as the operations' term: the pattern broadcast along a new middle axis of 16, then the first two axes
    merged. -/
theorem expand_eq (c : Dev nD) :
    (V (F := Ideal) m c main_call0_v7 : S2048x128.Idx → EReal) =
      shapeCast S2048x128 (broadcastInDim S128x16x128 ![0, 2] bcast_S128x128_S128x16x128_0_2 eyeTerm)
        shapeCasts_S128x16x128_S2048x128 := by
  dsimp only [Gen.V, Gen.hostOps0]; after_results; rfl

/-- The expansion matrix as the launch finds it: entry (r, b) is 1 if r / 16 = b, else 0. -/
theorem expand_apply (c : Dev nD) (r : Fin 2048) (b : Fin 128) :
    (V (F := Ideal) m c main_call0_v7 : FVec Ideal S2048x128 .f32) (ix2 r b) = if r.val / 16 = b.val then (1 : EReal) else 0 := by
  have hr := r.isLt
  have hd : r.val / 16 < 128 := by omega
  have hm : r.val % 16 < 16 := Nat.mod_lt _ (by omega)
  refine (congrFun (expand_eq m c) (ix2 r b)).trans ?_
  refine (shapeCast_apply _ shapeCasts_S128x16x128_S2048x128 (ix2 r b)
    (ix3 (⟨r.val / 16, hd⟩ : Fin 128) (⟨r.val % 16, hm⟩ : Fin 16) b) ?_).trans ?_
  · rw [Shape.rowMajor_val_three, Shape.rowMajor_val_two]
    show (r.val / 16 * 16 + r.val % 16) * 128 + b.val = r.val * 128 + b.val
    rw [Nat.div_add_mod']
  refine (broadcastInDim_apply _ bcast_S128x128_S128x16x128_0_2 eyeTerm _ (ix2 (⟨r.val / 16, hd⟩ : Fin 128) b) ?_).trans ?_
  · intro a
    match a with
    | ⟨0, _⟩ => rfl
    | ⟨1, _⟩ => rfl
  exact eyeTerm_apply _ b

end Cert.KernelIdeal.Hand

end
-- ==== Proof.KValue.lean ====
/-
  What the kernel's program computes: its two result arrays after the run, as functions of the three argument arrays.

  Grid point `t` holds the tile of nodes `128 t … 128 t + 127`: its blocks of the node features and of the neighbour
  features are those rows of the arguments, the weights and the expansion matrix are whole. The body's two stored values
  (read at an index in the payload module) are therefore block `t` of the graph convolution of the whole arrays, the 64
  blocks tile both results, and the results end holding the graph convolution.
-/
import proofs.«182112_g2000104578353512_pallasbulk_618_4_alg».proof.Proof.Gen.KernelIdeal.Value
import proofs.«182112_g2000104578353512_pallasbulk_618_4_alg».proof.Proof.KPay
import proofs.«182112_g2000104578353512_pallasbulk_618_4_alg».proof.Proof.KExpand
import proofs.«182112_g2000104578353512_pallasbulk_618_4_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices of the six windows at grid point `t`: the tiled ones follow `t` on their first axis. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 64 := by
  have h1 : t.val < cfg0.N := t.isLt
  have h2 : cfg0.N = 64 := N_0
  omega

/-- Node `p` of tile `t` among all nodes. -/
def node (t : Fin cfg0.N) (p : Fin 128) : Fin 8192 := ⟨128 * t.val + p.val, by have := t_lt t; have := p.isLt; omega⟩

theorem node_val (t : Fin cfg0.N) (p : Fin 128) : (node t p).val = 128 * t.val + p.val := rfl

/-! ## The arrays the launch finds and the blocks of a point, at their literal types -/

abbrev xarr (c : Dev nD) : FVec Ideal S8192x256 .f32 := V m c main_arg0
abbrev narr (c : Dev nD) : FVec Ideal S8192x16x256 .f32 := V m c main_arg1
abbrev warr (c : Dev nD) : FVec Ideal S256x256 .f32 := V m c main_arg2
abbrev earr (c : Dev nD) : FVec Ideal S2048x128 .f32 := V m c main_call0_v7
abbrev xblk (c : Dev nD) (t : Fin cfg0.N) : Vec Ideal S128x256 .f32 := iblk m c 0 t
abbrev nblk (c : Dev nD) (t : Fin cfg0.N) : Vec Ideal S128x16x256 .f32 := iblk m c 1 t
abbrev wblk (c : Dev nD) (t : Fin cfg0.N) : Vec Ideal S256x256 .f32 := iblk m c 2 t
abbrev eblk (c : Dev nD) (t : Fin cfg0.N) : Vec Ideal S2048x128 .f32 := iblk m c 3 t

/-- The node-feature block of tile `t`: rows `128 t + p`. -/
theorem xblk_apply (c : Dev nD) (t : Fin cfg0.N) (p : Fin 128) (f : Fin 256) :
    xblk m c t (ix2 p f) = xarr m c (ix2 (node t p) f) := by
  obtain ⟨e00, e01, -⟩ := idx_facts t
  unfold xblk iblk
  rw [View.read_apply]
  show V m c main_arg0 _ = V m c main_arg0 _
  congr 1
  funext a
  apply Fin.ext
  match a with
  | ⟨0, _⟩ => show win0_0.index t (0 : Fin 2) * 128 + 1 * p.val = 128 * t.val + p.val; rw [e00]; omega
  | ⟨1, _⟩ => show win0_0.index t (1 : Fin 2) * 256 + 1 * f.val = f.val; rw [e01]; omega

/-- The neighbour block of tile `t`: rows `128 t + p`, every slot. -/
theorem nblk_apply (c : Dev nD) (t : Fin cfg0.N) (p : Fin 128) (k : Fin 16) (f : Fin 256) :
    nblk m c t (ix3 p k f) = narr m c (ix3 (node t p) k f) := by
  obtain ⟨-, -, e10, e11, e12, -⟩ := idx_facts t
  unfold nblk iblk
  rw [View.read_apply]
  show V m c main_arg1 _ = V m c main_arg1 _
  congr 1
  funext a
  apply Fin.ext
  match a with
  | ⟨0, _⟩ => show win0_1.index t (0 : Fin 3) * 128 + 1 * p.val = 128 * t.val + p.val; rw [e10]; omega
  | ⟨1, _⟩ => show win0_1.index t (1 : Fin 3) * 16 + 1 * k.val = k.val; rw [e11]; omega
  | ⟨2, _⟩ => show win0_1.index t (2 : Fin 3) * 256 + 1 * f.val = f.val; rw [e12]; omega

/-- The weights are staged whole. -/
theorem wblk_apply (c : Dev nD) (t : Fin cfg0.N) (f : Fin 256) (o : Fin 256) :
    wblk m c t (ix2 f o) = warr m c (ix2 f o) := by
  obtain ⟨-, -, -, -, -, e20, e21, -⟩ := idx_facts t
  unfold wblk iblk
  rw [View.read_apply]
  show V m c main_arg2 _ = V m c main_arg2 _
  congr 1
  funext a
  apply Fin.ext
  match a with
  | ⟨0, _⟩ => show win0_2.index t (0 : Fin 2) * 256 + 1 * f.val = f.val; rw [e20]; omega
  | ⟨1, _⟩ => show win0_2.index t (1 : Fin 2) * 256 + 1 * o.val = o.val; rw [e21]; omega

/-- The expansion matrix is staged whole. -/
theorem eblk_apply (c : Dev nD) (t : Fin cfg0.N) (r : Fin 2048) (b : Fin 128) :
    eblk m c t (ix2 r b) = earr m c (ix2 r b) := by
  obtain ⟨-, -, -, -, -, -, -, e30, e31, -⟩ := idx_facts t
  unfold eblk iblk
  rw [View.read_apply]
  show V m c main_call0_v7 _ = V m c main_call0_v7 _
  congr 1
  funext a
  apply Fin.ext
  match a with
  | ⟨0, _⟩ => show win0_3.index t (0 : Fin 2) * 2048 + 1 * r.val = r.val; rw [e30]; omega
  | ⟨1, _⟩ => show win0_3.index t (1 : Fin 2) * 128 + 1 * b.val = b.val; rw [e31]; omega

/-- The staged expansion matrix has its ones where `r / 16 = b`. -/
theorem eblk_indicator (c : Dev nD) (t : Fin cfg0.N) (r : Fin 2048) (b : Fin 128) :
    eblk m c t (ix2 r b) = if r.val / 16 = b.val then (1 : EReal) else 0 :=
  (eblk_apply m c t r b).trans (expand_apply m c r b)

/-! ## What a point stores is its tile of the graph convolution -/

theorem agg_tile (c : Dev nD) (t : Fin cfg0.N) :
    (k0_pay4 (wblk m c t) (eblk m c t) (nblk m c t) : Vec Ideal S128x256 .f32)
      = fun y => GraphConv.aggSpec (narr m c) (warr m c) (ix2 (node t (y 0)) (y 1)) := by
  funext y
  obtain ⟨p, o, rfl⟩ : ∃ (p : Fin 128) (o : Fin 256), y = ix2 p o := ⟨y 0, y 1, eq_ix2 y⟩
  refine (pay4_apply (wblk m c t) (eblk m c t) (nblk m c t) (eblk_indicator m c t) p o).trans ?_
  show _ = GraphConv.aggSpec (narr m c) (warr m c) (ix2 (node t p) o)
  rw [GraphConv.aggSpec_apply]
  refine Finset.sum_congr rfl fun k _ => ?_
  unfold GraphConv.nw
  refine Finset.sum_congr rfl fun f _ => ?_
  rw [nblk_apply, wblk_apply]

theorem out_tile (c : Dev nD) (t : Fin cfg0.N) :
    (k0_pay3 (wblk m c t) (eblk m c t) (nblk m c t) (xblk m c t) : Vec Ideal S128x16x256 .f32)
      = fun y => GraphConv.outSpec (xarr m c) (narr m c) (warr m c) (ix3 (node t (y 0)) (y 1) (y 2)) := by
  funext y
  obtain ⟨p, k, o, rfl⟩ : ∃ (p : Fin 128) (k : Fin 16) (o : Fin 256), y = ix3 p k o := ⟨y 0, y 1, y 2, eq_ix3 y⟩
  refine (pay3_apply (wblk m c t) (eblk m c t) (nblk m c t) (xblk m c t) (eblk_indicator m c t) p k o).trans ?_
  show _ = GraphConv.outSpec (xarr m c) (narr m c) (warr m c) (ix3 (node t p) k o)
  rw [GraphConv.outSpec_apply, add_comm]
  unfold GraphConv.xw GraphConv.nw
  refine congrArg₂ (· + ·) (Finset.sum_congr rfl fun f _ => ?_) (Finset.sum_congr rfl fun f _ => ?_)
  · rw [xblk_apply, wblk_apply]
  · rw [nblk_apply, wblk_apply]

/-- What point `t` writes back to the aggregated result is block `t` of the graph convolution. -/
theorem flushed4_eq (c : Dev nD) (t : Fin cfg0.N) :
    (dats m 0 c).flushed 4 t
      = ((cfg0.win 4).blk t).view.read (Elt Ideal) (GraphConv.aggSpec (narr m c) (warr m c)) := by
  rw [flushed4]
  unfold out0_4
  rw [View.canon_unit_zero hz2]
  simp only [View.ld_unit_zero (S := S256x256) hz2, View.ld_unit_zero (S := S2048x128) hz2,
    View.ld_unit_zero (S := S128x16x256) hz3]
  rw [show k0_pay4 (iblk m c 2 t) (iblk m c 3 t) (iblk m c 1 t) = _ from agg_tile m c t]
  obtain ⟨-, -, -, -, -, -, -, -, -, e40, e41, -⟩ := idx_facts t
  funext j
  show GraphConv.aggSpec (narr m c) (warr m c) (ix2 (node t (j 0)) (j 1))
    = GraphConv.aggSpec (narr m c) (warr m c) (((cfg0.win 4).blk t).view.emb j)
  congr 1
  funext a
  apply Fin.ext
  match a with
  | ⟨0, _⟩ => show 128 * t.val + (j 0).val = win0_4.index t (0 : Fin 2) * 128 + 1 * (j 0).val; rw [e40]; omega
  | ⟨1, _⟩ => show (j 1).val = win0_4.index t (1 : Fin 2) * 256 + 1 * (j 1).val; rw [e41]; omega

/-- What point `t` writes back to the per-slot result is block `t` of the graph convolution. -/
theorem flushed5_eq (c : Dev nD) (t : Fin cfg0.N) :
    (dats m 0 c).flushed 5 t
      = ((cfg0.win 5).blk t).view.read (Elt Ideal) (GraphConv.outSpec (xarr m c) (narr m c) (warr m c)) := by
  rw [flushed5]
  unfold out0_5
  rw [View.canon_unit_zero hz3]
  simp only [View.ld_unit_zero (S := S256x256) hz2, View.ld_unit_zero (S := S2048x128) hz2,
    View.ld_unit_zero (S := S128x16x256) hz3, View.ld_unit_zero (S := S128x256) hz2]
  rw [show k0_pay3 (iblk m c 2 t) (iblk m c 3 t) (iblk m c 1 t) (iblk m c 0 t) = _ from out_tile m c t]
  obtain ⟨-, -, -, -, -, -, -, -, -, -, -, e50, e51, e52⟩ := idx_facts t
  funext j
  show GraphConv.outSpec (xarr m c) (narr m c) (warr m c) (ix3 (node t (j 0)) (j 1) (j 2))
    = GraphConv.outSpec (xarr m c) (narr m c) (warr m c) (((cfg0.win 5).blk t).view.emb j)
  congr 1
  funext a
  apply Fin.ext
  match a with
  | ⟨0, _⟩ => show 128 * t.val + (j 0).val = win0_5.index t (0 : Fin 3) * 128 + 1 * (j 0).val; rw [e50]; omega
  | ⟨1, _⟩ => show (j 1).val = win0_5.index t (1 : Fin 3) * 16 + 1 * (j 1).val; rw [e51]; omega
  | ⟨2, _⟩ => show (j 2).val = win0_5.index t (2 : Fin 3) * 256 + 1 * (j 2).val; rw [e52]; omega

/-! ## The 64 blocks tile each result -/

theorem mem_blk4 (t : Fin cfg0.N) (i : S8192x256.Idx) :
    i ∈ ((cfg0.win 4).blk t).view.set ↔ ∀ a : Fin 2, win0_4.index t a * S128x256.size a ≤ (i a).val
      ∧ (i a).val < win0_4.index t a * S128x256.size a + S128x256.size a := by
  show i ∈ ((View.whole main_v0_0).slice (win0_4.rect t)).set ↔ _
  rw [View.set_slice_whole, Rect.mem_set_unit]
  exact Iff.rfl

theorem mem_blk5 (t : Fin cfg0.N) (i : S8192x16x256.Idx) :
    i ∈ ((cfg0.win 5).blk t).view.set ↔ ∀ a : Fin 3, win0_5.index t a * S128x16x256.size a ≤ (i a).val
      ∧ (i a).val < win0_5.index t a * S128x16x256.size a + S128x16x256.size a := by
  show i ∈ ((View.whole main_v0_1).slice (win0_5.rect t)).set ↔ _
  rw [View.set_slice_whole, Rect.mem_set_unit]
  exact Iff.rfl

/-- Row `b` lies in the block of point `b / 128`. -/
theorem cover4 (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 64 := N_0
  let t : Fin cfg0.N := ⟨(i 0).val / 128, by omega⟩
  have ht : t.val = (i 0).val / 128 := rfl
  obtain ⟨-, -, -, -, -, -, -, -, -, e40, e41, -⟩ := idx_facts t
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; rw [e40, ht]; omega
  | ⟨1, _⟩ => show win0_4.index t (1 : Fin 2) * 256 ≤ (i 1).val ∧ (i 1).val < win0_4.index t (1 : Fin 2) * 256 + 256; rw [e41]; omega

theorem cover5 (i : S8192x16x256.Idx) :
    ∃ t : Fin cfg0.N, (cfg0.win 5).flush t = true ∧ i ∈ ((cfg0.win 5).blk t).view.set := by
  have hi0 : (i 0).val < 8192 := (i 0).isLt
  have hi1 : (i 1).val < 16 := (i 1).isLt
  have hi2 : (i 2).val < 256 := (i 2).isLt
  have hN : cfg0.N = 64 := N_0
  let t : Fin cfg0.N := ⟨(i 0).val / 128, by omega⟩
  have ht : t.val = (i 0).val / 128 := rfl
  obtain ⟨-, -, -, -, -, -, -, -, -, -, -, e50, e51, e52⟩ := idx_facts t
  refine ⟨t, flush0_5 t, ?_⟩
  rw [mem_blk5]
  intro a
  match a with
  | ⟨0, _⟩ => show win0_5.index t (0 : Fin 3) * 128 ≤ (i 0).val ∧ (i 0).val < win0_5.index t (0 : Fin 3) * 128 + 128; rw [e50, ht]; omega
  | ⟨1, _⟩ => show win0_5.index t (1 : Fin 3) * 16 ≤ (i 1).val ∧ (i 1).val < win0_5.index t (1 : Fin 3) * 16 + 16; rw [e51]; omega
  | ⟨2, _⟩ => show win0_5.index t (2 : Fin 3) * 256 ≤ (i 2).val ∧ (i 2).val < win0_5.index t (2 : Fin 3) * 256 + 256; rw [e52]; omega

/-! ## The results after the run -/

theorem final4 (c : Dev nD) : (dats m 0 c).arrAt 4 cfg0.N = GraphConv.aggSpec (narr m c) (warr m c) :=
  (dats m 0 c).arrAt_eq_of_cover 4 (GraphConv.aggSpec (narr m c) (warr m c)) (fun t _ => flushed4_eq m c t) cover4

theorem final5 (c : Dev nD) : (dats m 0 c).arrAt 5 cfg0.N = GraphConv.outSpec (xarr m c) (narr m c) (warr m c) :=
  (dats m 0 c).arrAt_eq_of_cover 5 (GraphConv.outSpec (xarr m c) (narr m c) (warr m c)) (fun t _ => flushed5_eq m c t) cover5

theorem xarr_eq (c : Dev nD) : xarr m c = m ((c.tc : Thread nD τ).loc main_arg0) := V_main_arg0 m c
theorem narr_eq (c : Dev nD) : narr m c = m ((c.tc : Thread nD τ).loc main_arg1) := V_main_arg1 m c
theorem warr_eq (c : Dev nD) : warr m c = m ((c.tc : Thread nD τ).loc main_arg2) := V_main_arg2 m c

/-- The kernel's run, read: the two results at the graph convolution of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v0_0)
        = GraphConv.aggSpec (m ((c.tc : Thread nD τ).loc main_arg1)) (m ((c.tc : Thread nD τ).loc main_arg2))
      ∧ r.2.mem ((c.tc : Thread nD τ).loc main_v0_1)
        = GraphConv.outSpec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((final4 m c).trans (by rw [narr_eq, warr_eq])),
      (h c).2.1.trans ((final5 m c).trans (by rw [xarr_eq, narr_eq, warr_eq])),
      (h c).2.2⟩)
    (run_blocks m ρ)

end Cert.KernelIdeal.Hand

end
-- ==== Proof.RefValue.lean ====
/-
  What the reference program computes: its two result arrays after the run, as functions of the three argument arrays.
-/
import proofs.«182112_g2000104578353512_pallasbulk_618_4_alg».proof.Proof.Gen.ReferenceIdeal.Frame
import proofs.«182112_g2000104578353512_pallasbulk_618_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Idealize.ShloMosaic.Lib.KernelVsHost

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Idealize.ShloMosaic.ValueIdx

variable (m : (ℓ : Loc nD τ sig) → Buf (Elt Ideal) ℓ) (ρ : Dev nD → PrngReg)

/-! ## One block product at an index -/

/-- A `[1, 512, 256]` slab, viewed `[512, 256]`, times the weights, into a zero accumulator. -/
abbrev slabProd (W : Vec Ideal S256x256 .f32) (v : Vec Ideal S1x512x256 .f32) : FVec Ideal S512x256 .f32 :=
  matmul (φ₁ := .f32) (φ₂ := .f32) dot_S512x256_S256x256_S512x256_1_0_0_1_n_n none (shapeCast S512x256 v shapeCasts_S1x512x256_S512x256) W
    (constant (F := Ideal) S512x256 .f32 0x00000000#32)

/-- A `[512, 256]` block times the weights, into a zero accumulator. -/
abbrev blockProd (W : Vec Ideal S256x256 .f32) (x : Vec Ideal S512x256 .f32) : FVec Ideal S512x256 .f32 :=
  matmul (φ₁ := .f32) (φ₂ := .f32) dot_S512x256_S256x256_S512x256_1_0_0_1_n_n none x W (constant (F := Ideal) S512x256 .f32 0x00000000#32)

/-- At `(r, o)` the slab's product is the sum over the contracted coordinate of the slab's row times the weights' column. -/
theorem slabProd_apply (W : Vec Ideal S256x256 .f32) (v : Vec Ideal S1x512x256 .f32) (r : Fin 512) (o : Fin 256) :
    slabProd W v (ix2 r o) = ∑ f : Fin 256, v (ix3 (0 : Fin 1) r f) * W (ix2 f o) := by
  unfold slabProd
  rw [matmul_zero_eq_dotGeneral]
  refine (StackMember.dotGeneral_plain_apply (m := 512) (n := 256) (k := 256) (φ₁ := .f32) (φ₂ := .f32) none _ W r o).trans ?_
  refine Finset.sum_congr rfl fun f _ => ?_
  rw [shapeCast_1ab_ab_apply]

/-- The block's product at `(r, o)`. -/
theorem blockProd_apply (W : Vec Ideal S256x256 .f32) (x : Vec Ideal S512x256 .f32) (r : Fin 512) (o : Fin 256) :
    blockProd W x (ix2 r o) = ∑ f : Fin 256, x (ix2 r f) * W (ix2 f o) := by
  unfold blockProd
  rw [matmul_zero_eq_dotGeneral]
  exact StackMember.dotGeneral_plain_apply (m := 512) (n := 256) (k := 256) (φ₁ := .f32) (φ₂ := .f32) none x W r o

/-! ## The body's loads -/

theorem hz2 : (![0, 0] : Fin 2 → Nat) = fun _ => 0 := funext fun a => by fin_cases a <;> rfl

/-- A load of slab `s` of the sixteen-slab block, at `(u, r, f)`, reads the block at `(s, r, f)`. -/
theorem ld_slab_apply (x1 : Vec Ideal S16x512x256 .f32) (s : Fin 16) (off : Fin 3 → Nat) (hoff : off = ![s.val, 0, 0])
    (inb : ∀ a, off a + S1x512x256.size a ≤ S16x512x256.size a) (u : Fin 1) (r : Fin 512) (f : Fin 256) :
    View.ld x1 (Rect.unit (s := S16x512x256) off S1x512x256.size inb) (ix3 u r f) = x1 (ix3 s r f) := by
  subst hoff
  show x1 _ = x1 _
  refine congrArg x1 (funext fun a => Fin.ext ?_)
  match a with
  | ⟨0, _⟩ => show s.val + 1 * u.val = s.val; omega
  | ⟨1, _⟩ => show 0 + 1 * r.val = r.val; omega
  | ⟨2, _⟩ => show 0 + 1 * f.val = f.val; omega

/-- Slab `s`'s rectangle places `(u, r, o)` at `(s, r, o)`. -/
theorem emb_slab (s : Fin 16) (off : Fin 3 → Nat) (hoff : off = ![s.val, 0, 0])
    (inb : ∀ a, off a + S1x512x256.size a ≤ S16x512x256.size a) (u : Fin 1) (r : Fin 512) (o : Fin 256) :
    (Rect.unit (s := S16x512x256) off S1x512x256.size inb).emb (ix3 u r o) = ix3 s r o := by
  subst hoff
  refine funext fun a => Fin.ext ?_
  match a with
  | ⟨0, _⟩ => show s.val + 1 * u.val = s.val; omega
  | ⟨1, _⟩ => show 0 + 1 * r.val = r.val; omega
  | ⟨2, _⟩ => show 0 + 1 * o.val = o.val; omega

/-- A sum over the sixteen slots, written out from the left. -/
theorem sum16 (g : Fin 16 → EReal) : ∑ k : Fin 16, g k
    = ((((((((((((((g 0 + g 1) + g 2) + g 3) + g 4) + g 5) + g 6) + g 7) + g 8) + g 9) + g 10) + g 11) + g 12) + g 13) + g 14) + g 15 := by
  simp only [Fin.sum_univ_castSucc, Fin.sum_univ_zero, zero_add]
  rfl

/-! ## What the body leaves, at an index -/

/-- The slot-`s` product of a sixteen-slab block with the weights, at row `r` and column `o`. -/
def nwB (x1 : Vec Ideal S16x512x256 .f32) (W : Vec Ideal S256x256 .f32) (s : Fin 16) (r : Fin 512) (o : Fin 256) : EReal :=
  ∑ f : Fin 256, x1 (ix3 s r f) * W (ix2 f o)

/-- The node block's product with the weights, at row `r` and column `o`. -/
def xwB (x0 : Vec Ideal S512x256 .f32) (W : Vec Ideal S256x256 .f32) (r : Fin 512) (o : Fin 256) : EReal :=
  ∑ f : Fin 256, x0 (ix2 r f) * W (ix2 f o)

/-- The product of a loaded slab is the block's slot product. -/
theorem slabProd_ld_apply (x1 : Vec Ideal S16x512x256 .f32) (W : Vec Ideal S256x256 .f32) (s : Fin 16) (off : Fin 3 → Nat)
    (hoff : off = ![s.val, 0, 0]) (inb : ∀ a, off a + S1x512x256.size a ≤ S16x512x256.size a) (r : Fin 512) (o : Fin 256) :
    slabProd W (View.ld x1 (Rect.unit (s := S16x512x256) off S1x512x256.size inb)) (ix2 r o) = nwB x1 W s r o := by
  rw [slabProd_apply]
  exact Finset.sum_congr rfl fun f _ => congrArg (· * W (ix2 f o)) (ld_slab_apply x1 s off hoff inb 0 r f)

/-- The aggregated output's buffer after the body: at `(r, o)` the sum over the sixteen slots of the slot products. -/
theorem out3_apply (x0 : Vec Ideal S512x256 .f32) (x1 : Vec Ideal S16x512x256 .f32) (x2 : Vec Ideal S256x256 .f32) (r : Fin 512) (o : Fin 256) :
    out0_3 x0 x1 x2 (ix2 r o) = ∑ k : Fin 16, nwB x1 x2 k r o := by
  unfold out0_3
  rw [View.canon_unit_zero hz2, View.ld_unit_zero (S := S256x256) hz2]
  rw [sum16]
  show (((((((((((((((slabProd x2 (View.ld x1 r0_2) (ix2 r o) + slabProd x2 (View.ld x1 r0_3) (ix2 r o)) + slabProd x2 (View.ld x1 r0_4) (ix2 r o))
      + slabProd x2 (View.ld x1 r0_5) (ix2 r o)) + slabProd x2 (View.ld x1 r0_6) (ix2 r o)) + slabProd x2 (View.ld x1 r0_7) (ix2 r o))
      + slabProd x2 (View.ld x1 r0_8) (ix2 r o)) + slabProd x2 (View.ld x1 r0_9) (ix2 r o)) + slabProd x2 (View.ld x1 r0_10) (ix2 r o))
      + slabProd x2 (View.ld x1 r0_11) (ix2 r o)) + slabProd x2 (View.ld x1 r0_12) (ix2 r o)) + slabProd x2 (View.ld x1 r0_13) (ix2 r o))
      + slabProd x2 (View.ld x1 r0_14) (ix2 r o)) + slabProd x2 (View.ld x1 r0_15) (ix2 r o)) + slabProd x2 (View.ld x1 r0_16) (ix2 r o))
      + slabProd x2 (View.ld x1 r0_17) (ix2 r o)) = _
  rw [show slabProd x2 (View.ld x1 r0_2) (ix2 r o) = nwB x1 x2 0 r o from slabProd_ld_apply x1 x2 0 _ rfl _ r o,
    show slabProd x2 (View.ld x1 r0_3) (ix2 r o) = nwB x1 x2 1 r o from slabProd_ld_apply x1 x2 1 _ rfl _ r o,
    show slabProd x2 (View.ld x1 r0_4) (ix2 r o) = nwB x1 x2 2 r o from slabProd_ld_apply x1 x2 2 _ rfl _ r o,
    show slabProd x2 (View.ld x1 r0_5) (ix2 r o) = nwB x1 x2 3 r o from slabProd_ld_apply x1 x2 3 _ rfl _ r o,
    show slabProd x2 (View.ld x1 r0_6) (ix2 r o) = nwB x1 x2 4 r o from slabProd_ld_apply x1 x2 4 _ rfl _ r o,
    show slabProd x2 (View.ld x1 r0_7) (ix2 r o) = nwB x1 x2 5 r o from slabProd_ld_apply x1 x2 5 _ rfl _ r o,
    show slabProd x2 (View.ld x1 r0_8) (ix2 r o) = nwB x1 x2 6 r o from slabProd_ld_apply x1 x2 6 _ rfl _ r o,
    show slabProd x2 (View.ld x1 r0_9) (ix2 r o) = nwB x1 x2 7 r o from slabProd_ld_apply x1 x2 7 _ rfl _ r o,
    show slabProd x2 (View.ld x1 r0_10) (ix2 r o) = nwB x1 x2 8 r o from slabProd_ld_apply x1 x2 8 _ rfl _ r o,
    show slabProd x2 (View.ld x1 r0_11) (ix2 r o) = nwB x1 x2 9 r o from slabProd_ld_apply x1 x2 9 _ rfl _ r o,
    show slabProd x2 (View.ld x1 r0_12) (ix2 r o) = nwB x1 x2 10 r o from slabProd_ld_apply x1 x2 10 _ rfl _ r o,
    show slabProd x2 (View.ld x1 r0_13) (ix2 r o) = nwB x1 x2 11 r o from slabProd_ld_apply x1 x2 11 _ rfl _ r o,
    show slabProd x2 (View.ld x1 r0_14) (ix2 r o) = nwB x1 x2 12 r o from slabProd_ld_apply x1 x2 12 _ rfl _ r o,
    show slabProd x2 (View.ld x1 r0_15) (ix2 r o) = nwB x1 x2 13 r o from slabProd_ld_apply x1 x2 13 _ rfl _ r o,
    show slabProd x2 (View.ld x1 r0_16) (ix2 r o) = nwB x1 x2 14 r o from slabProd_ld_apply x1 x2 14 _ rfl _ r o,
    show slabProd x2 (View.ld x1 r0_17) (ix2 r o) = nwB x1 x2 15 r o from slabProd_ld_apply x1 x2 15 _ rfl _ r o]

/-- A stored slab: the node block's product plus a slab's, laid as a `[1, 512, 256]` slab. -/
abbrev slabOut (XW : FVec Ideal S512x256 .f32) (P : FVec Ideal S512x256 .f32) : FVec Ideal S1x512x256 .f32 :=
  shapeCast S1x512x256 (addf XW P) shapeCasts_S512x256_S1x512x256

/-- The per-slot output's buffer after the body, as one function of the block index. -/
def G4 (x0 : Vec Ideal S512x256 .f32) (x1 : Vec Ideal S16x512x256 .f32) (x2 : Vec Ideal S256x256 .f32) : S16x512x256.Idx → EReal :=
  fun y => xwB x0 x2 (y 1) (y 2) + nwB x1 x2 (y 0) (y 1) (y 2)

theorem G4_apply (x0 : Vec Ideal S512x256 .f32) (x1 : Vec Ideal S16x512x256 .f32) (x2 : Vec Ideal S256x256 .f32)
    (s : Fin 16) (r : Fin 512) (o : Fin 256) : G4 x0 x1 x2 (ix3 s r o) = xwB x0 x2 r o + nwB x1 x2 s r o := rfl

/-- The slab stored for slot `s` agrees with that function under the slab's rectangle. -/
theorem piece_apply (x0 : Vec Ideal S512x256 .f32) (x1 : Vec Ideal S16x512x256 .f32) (x2 : Vec Ideal S256x256 .f32)
    (s : Fin 16) (off : Fin 3 → Nat) (hoff : off = ![s.val, 0, 0]) (inb : ∀ a, off a + S1x512x256.size a ≤ S16x512x256.size a)
    (pay : FVec Ideal S1x512x256 .f32)
    (hpay : pay = slabOut (blockProd x2 x0) (slabProd x2 (View.ld x1 (Rect.unit (s := S16x512x256) off S1x512x256.size inb))))
    (x : S1x512x256.Idx) :
    pay x = G4 x0 x1 x2 ((Rect.unit (s := S16x512x256) off S1x512x256.size inb).emb x) := by
  subst hpay
  obtain ⟨u, r, o, rfl⟩ : ∃ (u : Fin 1) (r : Fin 512) (o : Fin 256), x = ix3 u r o := ⟨x 0, x 1, x 2, eq_ix3 x⟩
  rw [emb_slab s off hoff inb u r o, G4_apply]
  unfold slabOut
  rw [shapeCast_ab_1ab_apply]
  show blockProd x2 x0 (ix2 r o) + slabProd x2 _ (ix2 r o) = _
  rw [blockProd_apply, slabProd_ld_apply x1 x2 s off hoff inb r o]
  rfl

/-- The per-slot output's buffer after the body: at `(s, r, o)` the node block's product plus slot `s`'s. -/
theorem out4_apply (x0 : Vec Ideal S512x256 .f32) (x1 : Vec Ideal S16x512x256 .f32) (x2 : Vec Ideal S256x256 .f32) (y : S16x512x256.Idx) :
    out0_4 x0 x1 x2 y = G4 x0 x1 x2 y := by
  unfold out0_4
  refine (View.canon_apply_of_pieces (G4 (View.ld x0 r0_1) x1 (View.ld x2 r0_0)) _ ?_ y (cover0_4 _ _ _ _ _ _ _ _ _ _ _ _ _ _ _ _ y)).trans ?_
  · intro p hp
    simp only [List.mem_cons, List.mem_nil_iff, or_false] at hp
    rcases hp with rfl | rfl | rfl | rfl | rfl | rfl | rfl | rfl | rfl | rfl | rfl | rfl | rfl | rfl | rfl | rfl
    · exact piece_apply _ x1 _ 15 _ rfl _ _ rfl
    · exact piece_apply _ x1 _ 14 _ rfl _ _ rfl
    · exact piece_apply _ x1 _ 13 _ rfl _ _ rfl
    · exact piece_apply _ x1 _ 12 _ rfl _ _ rfl
    · exact piece_apply _ x1 _ 11 _ rfl _ _ rfl
    · exact piece_apply _ x1 _ 10 _ rfl _ _ rfl
    · exact piece_apply _ x1 _ 9 _ rfl _ _ rfl
    · exact piece_apply _ x1 _ 8 _ rfl _ _ rfl
    · exact piece_apply _ x1 _ 7 _ rfl _ _ rfl
    · exact piece_apply _ x1 _ 6 _ rfl _ _ rfl
    · exact piece_apply _ x1 _ 5 _ rfl _ _ rfl
    · exact piece_apply _ x1 _ 4 _ rfl _ _ rfl
    · exact piece_apply _ x1 _ 3 _ rfl _ _ rfl
    · exact piece_apply _ x1 _ 2 _ rfl _ _ rfl
    · exact piece_apply _ x1 _ 1 _ rfl _ _ rfl
    · exact piece_apply _ x1 _ 0 _ rfl _ _ rfl
  · rw [View.ld_unit_zero (S := S256x256) hz2, View.ld_unit_zero (S := S512x256) hz2]

/-! ## The arrays and the windows' blocks -/

/-- The node features, the neighbour features and the weights, as launched. -/
abbrev Xarr (c : Dev nD) : Vec Ideal S8192x256 .f32 := m ((c.tc : Thread nD τ).loc main_arg0)
abbrev Narr (c : Dev nD) : Vec Ideal S8192x16x256 .f32 := m ((c.tc : Thread nD τ).loc main_arg1)
abbrev Warr (c : Dev nD) : Vec Ideal S256x256 .f32 := m ((c.tc : Thread nD τ).loc main_arg2)

/-- The three input blocks at a grid point. -/
abbrev xblk (c : Dev nD) (t : Fin cfg0.N) : Vec Ideal S512x256 .f32 := iblk m c 0 t
abbrev nblk (c : Dev nD) (t : Fin cfg0.N) : Vec Ideal S16x512x256 .f32 := iblk m c 1 t
abbrev wblk (c : Dev nD) (t : Fin cfg0.N) : Vec Ideal S256x256 .f32 := iblk m c 2 t

/-- The printed index maps, decided over the grid: the row-blocked windows are at block `t` on the node axis and at block
    zero elsewhere; the weights' window does not move. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

theorem t_lt (t : Fin cfg0.N) : t.val < 16 := lt_of_lt_of_eq t.isLt N_0

/-- Row `r` of block `t` is node `512 t + r`. -/
def rowOf (t : Fin cfg0.N) (r : Fin 512) : Fin 8192 := ⟨512 * t.val + r.val, by have := t_lt t; have := r.isLt; omega⟩

theorem emb0 (t : Fin cfg0.N) (r : Fin 512) (f : Fin 256) : ((cfg0.win 0).blk t).view.emb (ix2 r f) = ix2 (rowOf t r) f := by
  obtain ⟨e0, e1, -⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 256 + 1 * f.val = f.val; omega

theorem emb1 (t : Fin cfg0.N) (s : Fin 16) (r : Fin 512) (f : Fin 256) :
    ((cfg0.win 1).blk t).view.emb (ix3 s r f) = ix3 s (rowOf t r) f := by
  obtain ⟨-, -, e0, e1, e2, -⟩ := idx_facts t
  funext a; apply Fin.ext
  match a with
  | ⟨0, _⟩ => show win0_1.index t (0 : Fin 3) * 16 + 1 * s.val = s.val; omega
  | ⟨1, _⟩ => show win0_1.index t (1 : Fin 3) * 512 + 1 * r.val = 512 * t.val + r.val; omega
  | ⟨2, _⟩ => show win0_1.index t (2 : Fin 3) * 256 + 1 * f.val = f.val; omega

theorem emb2 (t : Fin cfg0.N) (y : S256x256.Idx) : ((cfg0.win 2).blk t).view.emb y = y := by
  obtain ⟨-, -, -, -, -, e0, e1, -⟩ := idx_facts t
  funext a; apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem emb3 (t : Fin cfg0.N) (r : Fin 512) (o : Fin 256) : ((cfg0.win 3).blk t).view.emb (ix2 r o) = ix2 (rowOf t r) o := by
  obtain ⟨-, -, -, -, -, -, -, e0, e1, -⟩ := idx_facts t
  funext a; apply Fin.ext
  match a with
  | ⟨0, _⟩ => show win0_3.index t (0 : Fin 2) * 512 + 1 * r.val = 512 * t.val + r.val; omega
  | ⟨1, _⟩ => show win0_3.index t (1 : Fin 2) * 256 + 1 * o.val = o.val; omega

theorem emb4 (t : Fin cfg0.N) (s : Fin 16) (r : Fin 512) (o : Fin 256) :
    ((cfg0.win 4).blk t).view.emb (ix3 s r o) = ix3 s (rowOf t r) o := by
  obtain ⟨-, -, -, -, -, -, -, -, -, e0, e1, e2⟩ := idx_facts t
  funext a; apply Fin.ext
  match a with
  | ⟨0, _⟩ => show win0_4.index t (0 : Fin 3) * 16 + 1 * s.val = s.val; omega
  | ⟨1, _⟩ => show win0_4.index t (1 : Fin 3) * 512 + 1 * r.val = 512 * t.val + r.val; omega
  | ⟨2, _⟩ => show win0_4.index t (2 : Fin 3) * 256 + 1 * o.val = o.val; omega

/-- The slot-major copy of the neighbour features the region reads: the host transpose before it. -/
theorem V_main_v0 (c : Dev nD) : (V m c main_v0 : S16x8192x256.Idx → EReal)
    = transpose S16x8192x256 [1, 0, 2] (Narr m c) transposes_S8192x16x256_S16x8192x256_1_0_2 := by
  show StableHlo.after hostOps0 (fun b => m (c, b)) (Proc.devRef .tc main_v0) = _
  after_results

/-- It holds, at `(s, b, f)`, neighbour slot `s` of node `b`. -/
theorem V_main_v0_apply (c : Dev nD) (s : Fin 16) (b : Fin 8192) (f : Fin 256) :
    (V m c main_v0 : S16x8192x256.Idx → EReal) (ix3 s b f) = Narr m c (ix3 b s f) := by
  rw [V_main_v0]
  exact transpose_apply _ _ _ _ _ fun a => match a with | ⟨0, _⟩ => rfl | ⟨1, _⟩ => rfl | ⟨2, _⟩ => rfl

/-- The node block at point `t`: rows `512 t …` of the node features. -/
theorem xblk_apply (c : Dev nD) (t : Fin cfg0.N) (r : Fin 512) (f : Fin 256) :
    xblk m c t (ix2 r f) = Xarr m c (ix2 (rowOf t r) f) := by
  show V m c main_arg0 (((cfg0.win 0).blk t).view.emb (ix2 r f)) = _
  rw [emb0]
  exact congrFun (V_main_arg0 m c) _

/-- The neighbour block at point `t`: all sixteen slots of nodes `512 t …`. -/
theorem nblk_apply (c : Dev nD) (t : Fin cfg0.N) (s : Fin 16) (r : Fin 512) (f : Fin 256) :
    nblk m c t (ix3 s r f) = Narr m c (ix3 (rowOf t r) s f) := by
  show V m c main_v0 (((cfg0.win 1).blk t).view.emb (ix3 s r f)) = _
  rw [emb1]
  exact V_main_v0_apply m c s (rowOf t r) f

/-- The weights' block is the weights. -/
theorem wblk_eq (c : Dev nD) (t : Fin cfg0.N) : wblk m c t = Warr m c := by
  funext y
  show V m c main_arg2 (((cfg0.win 2).blk t).view.emb y) = _
  rw [emb2]
  exact congrFun (V_main_arg2 m c) _

/-! ## What each point writes back -/

/-- The per-slot result held slot-major, as the region writes it: at `(s, b, o)` node `b`'s projection plus its slot `s`'s. -/
def slotMajor (X : FVec Ideal S8192x256 .f32) (N : FVec Ideal S8192x16x256 .f32) (W : FVec Ideal S256x256 .f32) :
    S16x8192x256.Idx → EReal :=
  fun i => GraphConv.xw X W (i 1) (i 2) + GraphConv.nw N W (i 1) (i 0) (i 2)

theorem slotMajor_apply (X : FVec Ideal S8192x256 .f32) (N : FVec Ideal S8192x16x256 .f32) (W : FVec Ideal S256x256 .f32)
    (s : Fin 16) (b : Fin 8192) (o : Fin 256) :
    slotMajor X N W (ix3 s b o) = GraphConv.xw X W b o + GraphConv.nw N W b s o := rfl

/-- Point `t` writes back block `t` of the aggregated result. -/
theorem flushed3_eq (c : Dev nD) (t : Fin cfg0.N) :
    (dats m 0 c).flushed 3 t = ((cfg0.win 3).blk t).view.read (Elt Ideal) (GraphConv.aggSpec (Narr m c) (Warr m c)) := by
  show (cfg0.win 3).cut (grid0.coords t) ((dats m 0 c).after 3 t) = _
  rw [after0_3]
  funext j
  obtain ⟨r, o, rfl⟩ : ∃ (r : Fin 512) (o : Fin 256), j = ix2 r o := ⟨j 0, j 1, eq_ix2 j⟩
  show out0_3 (xblk m c t) (nblk m c t) (wblk m c t) (ix2 r o)
    = GraphConv.aggSpec (Narr m c) (Warr m c) (((cfg0.win 3).blk t).view.emb (ix2 r o))
  rw [emb3, GraphConv.aggSpec_apply]
  refine (out3_apply (xblk m c t) (nblk m c t) (wblk m c t) r o).trans ?_
  refine Finset.sum_congr rfl fun k _ => ?_
  unfold nwB GraphConv.nw
  refine Finset.sum_congr rfl fun f _ => ?_
  rw [nblk_apply, wblk_eq]

/-- Point `t` writes back block `t` of the slot-major per-slot result. -/
theorem flushed4_eq (c : Dev nD) (t : Fin cfg0.N) :
    (dats m 0 c).flushed 4 t
      = ((cfg0.win 4).blk t).view.read (Elt Ideal) (slotMajor (Xarr m c) (Narr m c) (Warr m c)) := by
  show (cfg0.win 4).cut (grid0.coords t) ((dats m 0 c).after 4 t) = _
  rw [after0_4]
  funext j
  obtain ⟨s, r, o, rfl⟩ : ∃ (s : Fin 16) (r : Fin 512) (o : Fin 256), j = ix3 s r o := ⟨j 0, j 1, j 2, eq_ix3 j⟩
  show out0_4 (xblk m c t) (nblk m c t) (wblk m c t) (ix3 s r o)
    = slotMajor (Xarr m c) (Narr m c) (Warr m c) (((cfg0.win 4).blk t).view.emb (ix3 s r o))
  rw [emb4, slotMajor_apply]
  refine (out4_apply (xblk m c t) (nblk m c t) (wblk m c t) (ix3 s r o)).trans ?_
  rw [G4_apply]
  unfold xwB nwB GraphConv.xw GraphConv.nw
  refine congrArg₂ (· + ·) (Finset.sum_congr rfl fun f _ => ?_) (Finset.sum_congr rfl fun f _ => ?_)
  · rw [xblk_apply, wblk_eq]
  · rw [nblk_apply, wblk_eq]

/-! ## The blocks fill the arrays -/

theorem mem_blk3 (t : Fin cfg0.N) (i : S8192x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v1_0).slice (win0_3.rect t)).set ↔ _
  rw [View.set_slice_whole, Rect.mem_set_unit]
  exact Iff.rfl

theorem mem_blk4 (t : Fin cfg0.N) (i : S16x8192x256.Idx) :
    i ∈ ((cfg0.win 4).blk t).view.set ↔ ∀ a : Fin 3, win0_4.index t a * S16x512x256.size a ≤ (i a).val
      ∧ (i a).val < win0_4.index t a * S16x512x256.size a + S16x512x256.size a := by
  show i ∈ ((View.whole main_v1_1).slice (win0_4.rect t)).set ↔ _
  rw [View.set_slice_whole, Rect.mem_set_unit]
  exact Iff.rfl

/-- Node `b` lies in the block of point `b / 512`. -/
theorem cover3 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ : ∃ t : Fin cfg0.N, t.val = (i 0).val / 512 := ⟨⟨(i 0).val / 512, by show _ < grid0.N; rw [N_0]; omega⟩, rfl⟩
  obtain ⟨-, -, -, -, -, -, -, e0, e1, -⟩ := idx_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

theorem cover4 (i : S16x8192x256.Idx) : ∃ t : Fin cfg0.N, (cfg0.win 4).flush t = true ∧ i ∈ ((cfg0.win 4).blk t).view.set := by
  have hi0 : (i 0).val < 16 := (i 0).isLt
  have hi1 : (i 1).val < 8192 := (i 1).isLt
  have hi2 : (i 2).val < 256 := (i 2).isLt
  obtain ⟨t, ht⟩ : ∃ t : Fin cfg0.N, t.val = (i 1).val / 512 := ⟨⟨(i 1).val / 512, by show _ < grid0.N; rw [N_0]; omega⟩, rfl⟩
  obtain ⟨-, -, -, -, -, -, -, -, -, e0, e1, e2⟩ := idx_facts t
  refine ⟨t, flush0_4 t, ?_⟩
  rw [mem_blk4]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 512 ≤ (i 1).val ∧ (i 1).val < win0_4.index t (1 : Fin 3) * 512 + 512; omega
  | ⟨2, _⟩ => show win0_4.index t (2 : Fin 3) * 256 ≤ (i 2).val ∧ (i 2).val < win0_4.index t (2 : Fin 3) * 256 + 256; omega

/-! ## The arrays after the region, and the transpose after it -/

/-- The aggregated result's array after the region. -/
theorem final3 (c : Dev nD) : (dats m 0 c).arrAt 3 cfg0.N = GraphConv.aggSpec (Narr m c) (Warr m c) :=
  (dats m 0 c).arrAt_eq_of_cover 3 _ (fun t _ => flushed3_eq m c t) cover3

/-- The per-slot result's array after the region, slot-major. -/
theorem final4 (c : Dev nD) : (dats m 0 c).arrAt 4 cfg0.N = slotMajor (Xarr m c) (Narr m c) (Warr m c) :=
  (dats m 0 c).arrAt_eq_of_cover 4 _ (fun t _ => flushed4_eq m c t) cover4

/-- The host transpose after the region puts the nodes first again. -/
theorem tail_eq (c : Dev nD) : Pipeline.afterTail₀ cfgs (dats m) 0 (V0 m) [hostOps1] c main_v2
    = GraphConv.outSpec (Xarr m c) (Narr m c) (Warr m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1_1)
      = slotMajor (Xarr m c) (Narr m c) (Warr m c) :=
    (Pipeline.withArrays_arr spec0 launch0.win.arr_inj c _ _ 4).trans (final4 m c)
  rw [e]
  funext i
  obtain ⟨b, k, o, rfl⟩ : ∃ (b : Fin 8192) (k : Fin 16) (o : Fin 256), i = ix3 b k o := ⟨i 0, i 1, i 2, eq_ix3 i⟩
  refine (transpose_apply _ _ _ _ (ix3 k b o) fun a => match a with | ⟨0, _⟩ => rfl | ⟨1, _⟩ => rfl | ⟨2, _⟩ => rfl).trans ?_
  rw [slotMajor_apply, GraphConv.outSpec_apply]

/-! ## The run -/

/-- The reference's run, read: the two results at the graph convolution of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v1_0)
        = GraphConv.aggSpec (m ((c.tc : Thread nD τ).loc main_arg1)) (m ((c.tc : Thread nD τ).loc main_arg2))
      ∧ r.2.mem ((c.tc : Thread nD τ).loc main_v2)
        = GraphConv.outSpec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c),
      ((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩) (run_main m ρ)

end Cert.ReferenceIdeal.Hand

end
-- ==== Proof.lean ====
/-
  The certificate's claims.

  Both programs compute the graph convolution of the three argument arrays (module `Spec`): with `xw = X · W` and
  `nw_k = N[:, k, :] · W`, the first result is `∑ k, nw_k` and the second is `xw + nw_k` in slot `k`. The kernel
  forms the sum over the slots and the copies of `xw` by products with a 0/1 matrix, the reference by sixteen
  additions; over the extended reals a product with zero is zero and a product with one is the other factor, and
  addition is commutative and associative, so the two agree at every input (the precondition is not used). Each
  program's run is read in its own module (`KValue`, `RefValue`); here the two reads are set side by side.
-/
import proofs.«182112_g2000104578353512_pallasbulk_618_4_alg».proof.Defs
import proofs.«182112_g2000104578353512_pallasbulk_618_4_alg».proof.Proof.Gen.Kernel
import proofs.«182112_g2000104578353512_pallasbulk_618_4_alg».proof.Proof.Gen.Kernel.Frame
import proofs.«182112_g2000104578353512_pallasbulk_618_4_alg».proof.Proof.Gen.KernelIdeal
import proofs.«182112_g2000104578353512_pallasbulk_618_4_alg».proof.Proof.Gen.KernelIdeal.Frame
import proofs.«182112_g2000104578353512_pallasbulk_618_4_alg».proof.Proof.Gen.KernelIdeal.Value
import proofs.«182112_g2000104578353512_pallasbulk_618_4_alg».proof.Proof.Gen.ReferenceIdeal
import proofs.«182112_g2000104578353512_pallasbulk_618_4_alg».proof.Proof.Gen.ReferenceIdeal.Frame
import proofs.«182112_g2000104578353512_pallasbulk_618_4_alg».proof.Proof.Gen.Pre_finite_inputs
import proofs.«182112_g2000104578353512_pallasbulk_618_4_alg».proof.Proof.Spec
import proofs.«182112_g2000104578353512_pallasbulk_618_4_alg».proof.Proof.KValue
import proofs.«182112_g2000104578353512_pallasbulk_618_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- The idealization rewrote nothing: there is nothing to preserve. -/
theorem preserves : Cert.preserves_Kernel_KernelIdeal := trivial

/-- From memories agreeing on the arguments both programs end with the graph convolution of those arguments in their
    results. -/
theorem algebraic : Cert.algebraic_KernelIdeal_ReferenceIdeal := by
  intro m ρ m' ρ' _ hagree
  refine ⟨fun c => GraphConv.aggSpec (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => GraphConv.outSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun r h c => ?_) (Cert.ReferenceIdeal.Hand.run m' ρ')
  obtain ⟨h0, h1, h2⟩ := hagree c
  refine ⟨(h c).1.trans ?_, (h c).2.1.trans ?_, (h c).2.2⟩
  · rw [h1, h2]
  · rw [h0, h1, h2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
